-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4096x256 .f32) (main_arg1 : FVec F S8192x256 .f32) (main_arg2 : IVec S4096 32) (main_arg3 : IVec S8192 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S1x1 : Shape := ⟨2, ![1, 1]⟩
abbrev S1024x256 : Shape := ⟨2, ![1024, 256]⟩
abbrev S1024x1 : Shape := ⟨2, ![1024, 1]⟩
abbrev S1x1024 : Shape := ⟨2, ![1, 1024]⟩
abbrev S1024 : Shape := ⟨1, ![1024]⟩
abbrev S1024x1024 : Shape := ⟨2, ![1024, 1024]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096, .i32⟩
  | .hbm, ⟨3, _⟩ => ⟨S8192, .i32⟩
  | .hbm, ⟨4, _⟩ => ⟨S4096x1, .i32⟩
  | .hbm, ⟨5, _⟩ => ⟨S1x8192, .i32⟩
  | .hbm, ⟨6, _⟩ => ⟨S1x1, .f32⟩
  | .hbm, ⟨7, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v46 : BitVec 1 := Scalar.cmpi .eq arg0 c3_i32
  let arg1 : BitVec 32 := BitVec.ofNat 32 (i 1).val
  let c7_i32 : BitVec 32 := 7#32
  let v47 : BitVec 1 := Scalar.cmpi .eq arg1 c7_i32
  let v48 : BitVec 1 := Scalar.andi v46 v47
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096_S4096x1 : S4096.ShapeCasts S4096x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S_ : Shape := ⟨0, ![]⟩
abbrev S4096x1 : Shape := ⟨2, ![4096, 1]⟩
abbrev S8192x1 : Shape := ⟨2, ![8192, 1]⟩
abbrev S256x8192 : Shape := ⟨2, ![256, 8192]⟩
abbrev S4096x8192 : Shape := ⟨2, ![4096, 8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096, .i32⟩
  | .hbm, ⟨3, _⟩ => ⟨S8192, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S256x8192, .f32⟩
  | .hbm, ⟨25, _⟩ => ⟨S4096x8192, .f32⟩
  | .hbm, ⟨26, _⟩ => ⟨S4096x1, .i32⟩
  | .hbm, ⟨27, _⟩ => ⟨S1x8192, .i32⟩
  | .hbm, ⟨28, _⟩ => ⟨S4096x8192, .i32⟩
  | .hbm, ⟨29, _⟩ => ⟨S4096x8192, .i32⟩
  | .hbm, ⟨30, _⟩ => ⟨S4096x8192, .i1⟩
  | .hbm, ⟨31, _⟩ => ⟨S_, .f32⟩
  | .hbm, ⟨32, _⟩ => ⟨S_, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  reducesTo_S4096x8192_S_d0_1 : S4096x8192.ReducesTo [0, 1] S_
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.Pieces.lean ====
/-
  What each control case of the body leaves in the one-entry accumulator and in the output's staging
  buffer, as a value: the stores the run found, read back, are the body's arithmetic applied to the
  blocks it loaded.

  At the first grid point the body stores a zero into the accumulator, reads it back and stores the
  zero plus the tile's row sums; at the other points it adds the tile's row sums to what the point
  before left; at the last point it also stores the accumulator plus the margin into the output. Every
  load reads a whole buffer through the unit rectangle at zero offsets, so what it reads is the
  buffer's contents, and a load after a covering store reads what was stored.
-/
import proofs.«108141_j23184233464204_1_alg».proof.Proof.Gen.KernelIdeal.Frame
import Idealize.ShloMosaic.Lib.Pipeline.Value
import Idealize.ShloMosaic.Lib.Tactic

noncomputable section

namespace Cert.RankLoss.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- A middle point: the accumulator ends at what it held plus the tile's row sums, summed. -/
theorem sout_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S1024x256 .f32) (x2 : Vec F S1024x1 .i32) (x3 : Vec F S1x1024 .i32) (xs0 : Vec F S1x1 .f32) :
    sout0_B_0 c i arg2 harg2 arg3 harg3 arg4 harg4 arg5 harg5 arg6 harg6 arg7 harg7 hc0 hc1 x0 x1 x2 x3 xs0 = k0_pay1 (k0_pay4 x0 x1 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.ld_unit_zero (S := S1x1) hz, View.readCov_unit_zero (S := S1x1) _ hz]

/-- The first point: the accumulator is reset to the zero entry, read back, and ends at the zero entry plus the
    tile's row sums, summed. -/
theorem sout_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S1024x256 .f32) (x2 : Vec F S1024x1 .i32) (x3 : Vec F S1x1024 .i32) :
    sout0_A_0 c i arg2 harg2 arg3 harg3 arg4 harg4 arg5 harg5 arg6 harg6 arg7 harg7 hc0 hc1 x0 x1 x2 x3 = k0_pay1 (k0_pay4 x0 x1 x2 x3) k0_pay3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.ld_unit_zero (S := S1x1) hz, View.readCov_unit_zero (S := S1x1) _ hz]

/-- The last point, the accumulator: as at a middle point. -/
theorem sout_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S1024x256 .f32) (x2 : Vec F S1024x1 .i32) (x3 : Vec F S1x1024 .i32) (xs0 : Vec F S1x1 .f32) :
    sout0_C_0 c i arg2 harg2 arg3 harg3 arg4 harg4 arg5 harg5 arg6 harg6 arg7 harg7 hc0 hc1 x0 x1 x2 x3 xs0 = k0_pay1 (k0_pay4 x0 x1 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.ld_unit_zero (S := S1x1) hz, View.readCov_unit_zero (S := S1x1) _ hz]

/-- The last point, the output: the updated accumulator, read back, plus the margin. -/
theorem out_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S1024x256 .f32) (x2 : Vec F S1024x1 .i32) (x3 : Vec F S1x1024 .i32) (xs0 : Vec F S1x1 .f32) :
    out0_C_4 c i arg2 harg2 arg3 harg3 arg4 harg4 arg5 harg5 arg6 harg6 arg7 harg7 hc0 hc1 x0 x1 x2 x3 xs0 = k0_pay2 (k0_pay1 (k0_pay4 x0 x1 x2 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.ld_unit_zero (S := S1x1) hz, View.readCov_unit_zero (S := S1x1) _ hz]

end Cert.RankLoss.Pieces

end
-- ==== Proof.Cosine.lean ====
/-
  The quantity both programs compute, over the extended reals.

  A row of features is divided by its Euclidean norm, the norm kept at least a small clamp; the
  similarity of a query row and a database row is the inner product of the two normalised rows; it
  counts with sign +1 where the two rows' identifiers agree and -1 where they differ; the loss is a
  margin plus the sum of the signed similarities over every pair of a query row and a database row.

  The sum over all pairs can be taken tile by tile: the 4096 query rows in 4 runs of 1024, the 8192
  database rows in 8 runs of 1024, the 32 tiles numbered row-major. Addition on the extended reals
  is commutative and associative, so the regrouping holds with no finiteness assumption.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.RankLoss

open Idealize.ShloMosaic Idealize.ShloMosaic.ValueIdx

/-- One row of 256 features. -/
abbrev Row : Type := Fin 256 → EReal

/-- A row divided by its Euclidean norm, the norm kept at least the clamp. -/
def unitRow (x : Row) (k : Fin 256) : EReal :=
  Ideal.div (x k) (max (Ideal.sqrt (∑ l, x l * x l)) (Ideal.ofBits .f32 0x358637BD#32))

/-- +1 where two identifiers agree, -1 where they differ. -/
def sgn (p q : BitVec 32) : EReal :=
  Scalar.select (IntOp.cmpi .eq p q) (Ideal.ofBits .f32 0x3F800000#32) (Ideal.ofBits .f32 0xBF800000#32)

/-- The signed cosine similarity of a query row and a database row. -/
def pairTerm (x y : Row) (p q : BitVec 32) : EReal :=
  (∑ k, unitRow x k * unitRow y k) * sgn p q

/-- Row `a` of an array with 256 columns. -/
def rowOf {n : ℕ} (x : (⟨2, ![n, 256]⟩ : Shape).Idx → EReal) (a : Fin n) : Row := fun k => x (ix2 a k)

/-- A sum over `m` runs of 1024 consecutive positions is the double sum over the run and the
    position inside it. -/
theorem sum_blocks {M : Type*} [AddCommMonoid M] (m N : ℕ) (hN : m * 1024 = N) (f : Fin N → M) :
    ∑ a, f a = ∑ i : Fin m, ∑ r : Fin 1024,
      f ⟨1024 * i.val + r.val, by have := i.isLt; have := r.isLt; omega⟩ := by
  subst hN
  rw [← Equiv.sum_comp finProdFinEquiv f, Fintype.sum_prod_type]
  refine Finset.sum_congr rfl fun i _ => Finset.sum_congr rfl fun r _ => congrArg f (Fin.ext ?_)
  show r.val + 1024 * i.val = 1024 * i.val + r.val
  omega

/-- The sum over all pairs of a query row and a database row, taken tile by tile: tile `t` of the
    32 holds query rows `1024 (t / 8) + r` and database rows `1024 (t % 8) + c`. -/
theorem sum_tiles (g : Fin 4096 → Fin 8192 → EReal) :
    ∑ t : Fin 32, ∑ r : Fin 1024, ∑ c : Fin 1024,
        g ⟨1024 * (t.val / 8) + r.val, by have := t.isLt; have := r.isLt; omega⟩
          ⟨1024 * (t.val % 8) + c.val, by have := t.isLt; have := c.isLt; omega⟩
      = ∑ a, ∑ b, g a b := by
  rw [← Equiv.sum_comp (finProdFinEquiv (m := 4) (n := 8)), Fintype.sum_prod_type]
  rw [sum_blocks 4 4096 rfl]
  refine Finset.sum_congr rfl fun i _ => ?_
  have e : ∀ r : Fin 1024, ∑ b, g ⟨1024 * i.val + r.val, by have := i.isLt; have := r.isLt; omega⟩ b
      = ∑ j : Fin 8, ∑ c : Fin 1024, g ⟨1024 * i.val + r.val, by have := i.isLt; have := r.isLt; omega⟩
          ⟨1024 * j.val + c.val, by have := j.isLt; have := c.isLt; omega⟩ :=
    fun r => sum_blocks 8 8192 rfl _
  rw [Finset.sum_congr rfl fun r _ => e r, Finset.sum_comm]
  refine Finset.sum_congr rfl fun r _ => Finset.sum_congr rfl fun j _ => Finset.sum_congr rfl fun c _ => ?_
  have hv : (finProdFinEquiv (i, j) : Fin (4 * 8)).val = j.val + 8 * i.val := rfl
  have hi : i.val < 4 := i.isLt
  have hj : j.val < 8 := j.isLt
  congr 1 <;> refine Fin.ext ?_ <;> simp only [hv] <;> omega

end Cert.RankLoss

end
-- ==== Proof.LibColumn.lean ====
/-
  Column forms of two layout operations, read at an index given by coordinates: a vector `[a]` viewed
  as a column `[a, 1]` (what a sum over the last axis with the axis kept produces), and a column
  `[a, 1]` repeated along the last axis to `[a, b]`. Companions of the library's row forms
  (`shapeCast_a_1a_apply`, `broadcastTo_1b_ab_apply`).
-/
import Idealize.ShloMosaic.Lib.ValueLayout

namespace Cert.RankLoss.Column

open Idealize.ShloMosaic Idealize.ShloMosaic.ValueIdx

variable {α : Type}

/-- An `[a]` array cast to `[a, 1]` reads, at `(i, u)`, the operand at `i`, whatever the unit coordinate `u`:
    the two positions are the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.RankLoss.Column
-- ==== Proof.TileValue.lean ====
/-
  What one grid point adds to the running total, over the extended reals.

  The body normalises its block of 1024 query rows and its block of 1024 database rows (each row
  divided by its clamped norm; the narrowing to bf16 is the identity on extended reals), multiplies the
  two normalised blocks (the inner product of row `p` of the one and row `c` of the other), multiplies
  by the sign of the identifiers' agreement, sums each row over the 1024 columns and then the 1024 row
  sums: the tile's contribution `tileSum`, the sum of `pairTerm` over the tile's 1024 × 1024 pairs. It
  adds that to what the one-entry accumulator held; at the last point the accumulator plus the margin
  is the result.
-/
import proofs.«108141_j23184233464204_1_alg».proof.Proof.Gen.KernelIdeal.Skeleton
import proofs.«108141_j23184233464204_1_alg».proof.Proof.Cosine
import proofs.«108141_j23184233464204_1_alg».proof.Proof.LibColumn
import Idealize.ShloMosaic.Lib.Pipeline.Value
import Idealize.ShloMosaic.Lib.ValueLayout

noncomputable section

open scoped BigOperators

namespace Cert.RankLoss.Tile

open Idealize.ShloMosaic Idealize.ShloMosaic.ValueIdx Cert.KernelIdeal Cert.KernelIdeal.Gen Cert.RankLoss Cert.RankLoss.Column

/-! ## The reductions and the product, at an index -/

/-- A sum over the 256 columns of a block of rows, at row `r`. -/
theorem rowSum256 (src : FVec Ideal S1024x256 .f32) (h : S1024x256.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 256, src (ix2 r k) :=
  (Ideal.multiReduction_add_single src _ h hφ hacc (ix1 r)).trans (Finset.sum_congr rfl fun k _ =>
    congrArg src (funext fun e => Fin.ext (by match e with | ⟨0, _⟩ => rfl | ⟨1, _⟩ => rfl)))

/-- A sum over the 1024 columns of a tile, at row `r`. -/
theorem rowSum1024 (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) :=
  (Ideal.multiReduction_add_single src _ h hφ hacc (ix1 r)).trans (Finset.sum_congr rfl fun k _ =>
    congrArg src (funext fun e => Fin.ext (by match e with | ⟨0, _⟩ => rfl | ⟨1, _⟩ => rfl)))

/-- A sum over the 1024 rows of a column. -/
theorem colSum1024 (src : FVec Ideal S1024x1 .f32) (h : S1024x1.Reduces [0] S1) (hφ : FKind.Formats .f32)
    (hacc : (0x00000000#32 : BitVec 32) = FKind.add.neutral .f32 hφ) (v : Fin 1) :
    multiReduction .add [0] S1 src 0x00000000#32 h hφ hacc (ix1 v) = ∑ r : Fin 1024, src (ix2 r v) :=
  (Ideal.multiReduction_add_single src _ h hφ hacc (ix1 v)).trans (Finset.sum_congr rfl fun k _ =>
    congrArg src (funext fun e => Fin.ext (by match e with | ⟨0, _⟩ => rfl | ⟨1, _⟩ => rfl)))

/-- The record of the tile's product: row axis of both operands kept, column axis of both contracted. -/
abbrev DT := dot_S1024x256_S1024x256_S1024x1024_1_1_0_0_n_n

theorem lhs_DT_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_DT_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_DT_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_DT_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product of two blocks of rows into a zero accumulator, at `(p, c)`: the inner product of row `p` of
    the left block and row `c` of the right block. -/
theorem matmul_tile {φ₁ φ₂ : FTy} (l : FVec Ideal S1024x256 φ₁) (r : FVec Ideal S1024x256 φ₂) (p c : Fin 1024) :
    matmul dot_S1024x256_S1024x256_S1024x1024_1_1_0_0_n_n none l r (constant S1024x1024 .f32 0x00000000#32) (ix2 p c)
      = ∑ k : Fin 256, l (ix2 p k) * r (ix2 c k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p c) ((ValueIdx.contrEquiv1 dot_S1024x256_S1024x256_S1024x1024_1_1_0_0_n_n 256 rfl rfl).symm k) = ix2 p k := funext fun a => Fin.ext (by
    match a with
    | ⟨0, _⟩ => exact lhs_DT_0 _ _
    | ⟨1, _⟩ => exact (lhs_DT_1 _ _).trans hk)
  have er : dot_S1024x256_S1024x256_S1024x1024_1_1_0_0_n_n.rhsIdx (ix2 p c) ((ValueIdx.contrEquiv1 dot_S1024x256_S1024x256_S1024x1024_1_1_0_0_n_n 256 rfl rfl).symm k) = ix2 c k := funext fun a => Fin.ext (by
    match a with
    | ⟨0, _⟩ => exact rhs_DT_0 _ _
    | ⟨1, _⟩ => exact (rhs_DT_1 _ _).trans hk)
  rw [el, er]

/-! ## The body's pieces -/

/-- A block of rows, each divided by its clamped norm, narrowed to bf16. -/
def unitBlock (x : Vec Ideal S1024x256 .f32) : FVec Ideal S1024x256 .bf16 :=
  truncf .bf16 (divf x (broadcastTo S1024x256 (maximumf (sqrt (shapeCast S1024x1
    (multiReduction .add [1] S1024 (mulf x x) 0x00000000#32 reduces_S1024x256_S1024 (.inl rfl) rfl) shapeCasts_S1024_S1024x1))
    (broadcast S1024x1 (Scalar.ofBits .f32 0x358637BD#32))) broadcasts_S1024x1_S1024x256)) bitsLt_bf16_f32

/-- Entry `(p, k)` of the normalised block is entry `k` of row `p` normalised. -/
theorem unitBlock_apply (x : Vec Ideal S1024x256 .f32) (p : Fin 1024) (k : Fin 256) :
    unitBlock x (ix2 p k) = unitRow (rowOf x p) k := by
  unfold unitBlock
  show Ideal.div (x (ix2 p k)) (broadcastTo S1024x256 _ broadcasts_S1024x1_S1024x256 (ix2 p k)) = _
  rw [broadcastTo_a1_ab_apply]
  show Ideal.div (x (ix2 p k)) (max (Ideal.sqrt (shapeCast S1024x1 _ shapeCasts_S1024_S1024x1 (ix2 p (0 : Fin 1)))) _) = _
  rw [shapeCast_a_a1_apply]
  exact congrArg (fun z => Ideal.div (x (ix2 p k)) (max (Ideal.sqrt z) (Ideal.ofBits .f32 0x358637BD#32)))
    (rowSum256 (mulf x x) _ _ _ p)

/-- The tile of signs: +1 where the query identifier of the row and the database identifier of the column agree. -/
def signBlock (x2 : Vec Ideal S1024x1 .i32) (x3 : Vec Ideal S1x1024 .i32) : FVec Ideal S1024x1024 .f32 :=
  select (cmpi .eq (broadcastTo S1024x1024 (shapeCast S1024x1 x2 shapeCasts_S1024x1_S1024x1) broadcasts_S1024x1_S1024x1024)
      (broadcastTo S1024x1024 (shapeCast S1x1024 x3 shapeCasts_S1x1024_S1x1024) broadcasts_S1x1024_S1024x1024))
    (broadcast S1024x1024 (Scalar.ofBits .f32 0x3F800000#32)) (broadcast S1024x1024 (Scalar.ofBits .f32 0xBF800000#32))

theorem signBlock_apply (x2 : Vec Ideal S1024x1 .i32) (x3 : Vec Ideal S1x1024 .i32) (p c : Fin 1024) :
    signBlock x2 x3 (ix2 p c) = sgn (x2 (ix2 p (0 : Fin 1))) (x3 (ix2 (0 : Fin 1) c)) := by
  unfold signBlock
  rw [shapeCast_self, shapeCast_self]
  show Scalar.select (IntOp.cmpi .eq (broadcastTo S1024x1024 x2 broadcasts_S1024x1_S1024x1024 (ix2 p c))
    (broadcastTo S1024x1024 x3 broadcasts_S1x1024_S1024x1024 (ix2 p c))) _ _ = _
  rw [broadcastTo_a1_ab_apply, broadcastTo_1b_ab_apply]
  rfl

/-- The row sums of a tile, as the body computes them from its four blocks. -/
theorem pay4_eq (x0 x1 : Vec Ideal S1024x256 .f32) (x2 : Vec Ideal S1024x1 .i32) (x3 : Vec Ideal S1x1024 .i32) :
    k0_pay4 (F := Ideal) x0 x1 x2 x3
      = multiReduction .add [1] S1024 (mulf (matmul dot_S1024x256_S1024x256_S1024x1024_1_1_0_0_n_n none (unitBlock x0) (unitBlock x1)
          (constant S1024x1024 .f32 0x00000000#32)) (signBlock x2 x3)) 0x00000000#32 reduces_S1024x1024_S1024 (.inl rfl) rfl := rfl

/-- Row sum `r` of the tile: the signed similarities of query row `r` against the tile's 1024 database rows. -/
theorem pay4_apply (x0 x1 : Vec Ideal S1024x256 .f32) (x2 : Vec Ideal S1024x1 .i32) (x3 : Vec Ideal S1x1024 .i32) (r : Fin 1024) :
    k0_pay4 (F := Ideal) x0 x1 x2 x3 (ix1 r)
      = ∑ c : Fin 1024, pairTerm (rowOf x0 r) (rowOf x1 c) (x2 (ix2 r (0 : Fin 1))) (x3 (ix2 (0 : Fin 1) c)) := by
  rw [pay4_eq]
  refine (rowSum1024 _ _ _ _ r).trans (Finset.sum_congr rfl fun c _ => ?_)
  show matmul dot_S1024x256_S1024x256_S1024x1024_1_1_0_0_n_n none (unitBlock x0) (unitBlock x1) (constant S1024x1024 .f32 0x00000000#32) (ix2 r c)
    * signBlock x2 x3 (ix2 r c) = _
  rw [matmul_tile, signBlock_apply]
  simp only [unitBlock_apply]
  rfl

/-- The tile's contribution: the signed similarities over its 1024 × 1024 pairs. -/
def tileSum (x0 x1 : Vec Ideal S1024x256 .f32) (x2 : Vec Ideal S1024x1 .i32) (x3 : Vec Ideal S1x1024 .i32) : EReal :=
  ∑ r : Fin 1024, ∑ c : Fin 1024, pairTerm (rowOf x0 r) (rowOf x1 c) (x2 (ix2 r (0 : Fin 1))) (x3 (ix2 (0 : Fin 1) c))

/-- The accumulator's update: the old entry plus the sum of the 1024 row sums. -/
theorem pay1_apply (v37 : FVec Ideal S1024 .f32) (acc : Vec Ideal S1x1 .f32) (u v : Fin 1) :
    k0_pay1 (F := Ideal) v37 acc (ix2 u v) = acc (ix2 u v) + ∑ r : Fin 1024, v37 (ix1 r) := by
  unfold k0_pay1
  rw [shapeCast_self]
  show acc (ix2 u v) + shapeCast S1x1 _ shapeCasts_S1_S1x1 (ix2 u v) = _
  rw [shapeCast_a_1a_apply]
  refine congrArg (acc (ix2 u v) + ·) ((colSum1024 _ _ _ _ v).trans ?_)
  exact Finset.sum_congr rfl fun r _ => shapeCast_a_a1_apply v37 _ r v

/-- The update with the row sums the body computes: the old entry plus the tile's contribution. -/
theorem step_apply (x0 x1 : Vec Ideal S1024x256 .f32) (x2 : Vec Ideal S1024x1 .i32) (x3 : Vec Ideal S1x1024 .i32)
    (acc : Vec Ideal S1x1 .f32) (u v : Fin 1) :
    k0_pay1 (F := Ideal) (k0_pay4 x0 x1 x2 x3) acc (ix2 u v) = acc (ix2 u v) + tileSum x0 x1 x2 x3 := by
  rw [pay1_apply]
  simp only [pay4_apply]
  rfl

/-- The reset stores the zero entry. -/
theorem pay3_apply (i : S1x1.Idx) : k0_pay3 (F := Ideal) i = 0 := by
  unfold k0_pay3
  rw [shapeCast_self]
  exact Ideal.ofBits_zero_f32

/-- The result stored at the last point: the accumulator's entry plus the margin. -/
theorem pay2_apply (v51 : Vec Ideal S1x1 .f32) (i : S1x1.Idx) :
    k0_pay2 (F := Ideal) v51 i = v51 i + Ideal.ofBits .f32 0x3E4CCCCD#32 := rfl

end Cert.RankLoss.Tile

end
-- ==== Proof.Accum.lean ====
/-
  The kernel's run, read as a value over the extended reals: the result is the sum of the 32 tiles'
  contributions plus the margin.

  The one-entry accumulator is carried from grid point to grid point: after point `n` it holds the sum of
  the contributions of tiles `0 … n` (by induction on the point: the first point resets it to zero and
  adds its tile, every later point adds its tile to what the point before left). The output block is
  stored at the last point only, as the accumulator plus the margin, and written back there; its one
  block is the whole `[1, 1]` array, which the host then reshapes to a scalar.
-/
import proofs.«108141_j23184233464204_1_alg».proof.Proof.Gen.KernelIdeal.Frame
import proofs.«108141_j23184233464204_1_alg».proof.Proof.Pieces
import proofs.«108141_j23184233464204_1_alg».proof.Proof.TileValue
import Idealize.ShloMosaic.Lib.Pipeline.Value
import Idealize.ShloMosaic.Lib.StableHlo.Run
import Idealize.ShloMosaic.Lib.Tactic
import Mathlib.Algebra.BigOperators.Fin

noncomputable section

open scoped BigOperators

namespace Cert.RankLoss.Accum

open Idealize.ShloMosaic Idealize.ShloMosaic.TcCoe Idealize.ShloMosaic.ValueIdx Idealize.SL.Sem Cert.KernelIdeal Cert.KernelIdeal.Gen
open Cert.RankLoss Cert.RankLoss.Tile Cert.RankLoss.Pieces
open Idealize.ShloMosaic.Pipeline (Dat)

section AnyInstance

variable {F : FTy → Type} [FloatOps F]
variable (m : (ℓ : Loc nD τ sig) → Buf (Elt F) ℓ)

/-- The four input blocks at a grid point, at their literal types. -/
abbrev qblk (c : Dev nD) (t : Fin cfg0.N) : Vec F S1024x256 .f32 := iblk m c 0 t
abbrev dblk (c : Dev nD) (t : Fin cfg0.N) : Vec F S1024x256 .f32 := iblk m c 1 t
abbrev qidblk (c : Dev nD) (t : Fin cfg0.N) : Vec F S1024x1 .i32 := iblk m c 2 t
abbrev didblk (c : Dev nD) (t : Fin cfg0.N) : Vec F S1x1024 .i32 := iblk m c 3 t

/-- After the first point the accumulator holds the zero entry updated with the first tile. -/
theorem scratch_first (c : Dev nD) (t : Fin cfg0.N) (h0 : t.val % 32 = 0) (h1 : ¬t.val % 32 = 31) :
    (outsAt0 m c t.val t.isLt).2 = k0_pay1 (k0_pay4 (qblk m c t) (dblk m c t) (qidblk m c t) (didblk m c t)) k0_pay3 := by
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- After a middle point the accumulator holds what the point before left, updated with the point's tile. -/
theorem scratch_middle (c : Dev nD) (t : Fin cfg0.N) (h0 : ¬t.val % 32 = 0) (h1 : ¬t.val % 32 = 31) :
    (outsAt0 m c t.val t.isLt).2 = k0_pay1 (k0_pay4 (qblk m c t) (dblk m c t) (qidblk m c t) (didblk m c t))
      (outsAt0 m c (t.val - 1) (Nat.lt_of_le_of_lt (Nat.sub_le _ _) t.isLt)).2 := by
  rw [outsAt0_B m c t h0 h1]
  dsimp only
  exact sout_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
    (iblk m c 0 t) (iblk m c 1 t) (iblk m c 2 t) (iblk m c 3 t) (outsAt0 m c (t.val - 1) (Nat.lt_of_le_of_lt (Nat.sub_le _ _) t.isLt)).2

/-- After the last point likewise. -/
theorem scratch_last (c : Dev nD) (t : Fin cfg0.N) (h0 : ¬t.val % 32 = 0) (h1 : t.val % 32 = 31) :
    (outsAt0 m c t.val t.isLt).2 = k0_pay1 (k0_pay4 (qblk m c t) (dblk m c t) (qidblk m c t) (didblk m c t))
      (outsAt0 m c (t.val - 1) (Nat.lt_of_le_of_lt (Nat.sub_le _ _) t.isLt)).2 := by
  rw [outsAt0_C m c t h0 h1]
  dsimp only
  exact sout_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

/-- At the last point the output's staging buffer holds the updated accumulator plus the margin. -/
theorem out_last (c : Dev nD) (t : Fin cfg0.N) (h0 : ¬t.val % 32 = 0) (h1 : t.val % 32 = 31) :
    (outsAt0 m c t.val t.isLt).1 = k0_pay2 (outsAt0 m c t.val t.isLt).2 := by
  rw [scratch_last m c t h0 h1, outsAt0_C m c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

end AnyInstance

section AtIdeal

variable (m : (ℓ : Loc nD τ sig) → Buf (Elt Ideal) ℓ) (ρ : Dev nD → PrngReg)

/-- The margin: the word the body adds at the last point. -/
abbrev margin : EReal := Ideal.ofBits .f32 0x3E4CCCCD#32

/-- Tile `t`'s contribution: the signed similarities over the pairs of its blocks' rows. -/
def tileAt (c : Dev nD) (t : Fin cfg0.N) : EReal :=
  tileSum (qblk m c t) (dblk m c t) (qidblk m c t) (didblk m c t)

/-- After point `n` the accumulator's entry is the sum of the contributions of tiles `0 … n`. -/
theorem acc_eq (c : Dev nD) : ∀ (n : ℕ) (hn : n < cfg0.N),
    (outsAt0 m c n hn).2 = fun _ => ∑ s : Fin (n + 1), tileAt m c ⟨s.val, Nat.lt_of_lt_of_le s.isLt hn⟩
  | 0, hn => by
    rw [scratch_first m c ⟨0, hn⟩ rfl (by dsimp only; omega)]
    funext i
    obtain ⟨u, v, rfl⟩ : ∃ (u v : Fin 1), i = ix2 u v := ⟨i 0, i 1, eq_ix2 i⟩
    rw [step_apply, pay3_apply, zero_add, Fin.sum_univ_one]
    rfl
  | n + 1, hn => by
    have hN : cfg0.N = 32 := N_0
    have h0 : ¬(⟨n + 1, hn⟩ : Fin cfg0.N).val % 32 = 0 := by dsimp only; omega
    have step : (outsAt0 m c (n + 1) hn).2
        = k0_pay1 (k0_pay4 (qblk m c ⟨n + 1, hn⟩) (dblk m c ⟨n + 1, hn⟩) (qidblk m c ⟨n + 1, hn⟩) (didblk m c ⟨n + 1, hn⟩))
            (outsAt0 m c n (Nat.lt_of_succ_lt hn)).2 := by
      by_cases h1 : (⟨n + 1, hn⟩ : Fin cfg0.N).val % 32 = 31
      · exact scratch_last m c ⟨n + 1, hn⟩ h0 h1
      · exact scratch_middle m c ⟨n + 1, hn⟩ h0 h1
    rw [step, acc_eq c n (Nat.lt_of_succ_lt hn)]
    funext i
    obtain ⟨u, v, rfl⟩ : ∃ (u v : Fin 1), i = ix2 u v := ⟨i 0, i 1, eq_ix2 i⟩
    rw [step_apply]
    exact (Fin.sum_univ_castSucc (fun s : Fin (n + 1 + 1) => tileAt m c ⟨s.val, Nat.lt_of_lt_of_le s.isLt hn⟩)).symm

/-- The sum of the 32 tiles' contributions. -/
def total (c : Dev nD) : EReal := ∑ s : Fin 32, tileAt m c ⟨s.val, lt_of_lt_of_eq s.isLt N_0.symm⟩

/-- At the last point the output's staging buffer holds the total plus the margin. -/
theorem out_final (c : Dev nD) (t : Fin cfg0.N) (h1 : t.val % 32 = 31) :
    (outsAt0 m c t.val t.isLt).1 = fun _ => total m c + margin := by
  have hN : cfg0.N = 32 := N_0
  obtain ⟨n, hn⟩ := t
  have hn31 : n = 31 := by dsimp only at h1; omega
  subst hn31
  rw [out_last m c ⟨31, hn⟩ (by dsimp only; omega) rfl, acc_eq m c 31 hn]
  rfl

/-- The result array after the run: its one entry is the total plus the margin. -/
abbrev resultArr (c : Dev nD) : Buf (Elt Ideal) ((c : Thread nD τ).loc main_v2) := fun _ => total m c + margin

/-- The one write-back, at the last point, writes that entry. -/
theorem flushed_eq (c : Dev nD) (t : Fin cfg0.N) (hf : (cfg0.win 4).flush t = true) :
    (dats m 0 c).flushed 4 t = ((cfg0.win 4).blk t).view.read (Elt Ideal) (resultArr m c) := by
  have h1 : t.val % 32 = 31 := (flush0_4 t).mp hf
  show (cfg0.win 4).cut (grid0.coords t) ((dats m 0 c).after 4 t) = _
  rw [after0_4, out_final m c t h1]
  rfl

/-- The last grid point. -/
def lastPt : Fin cfg0.N := ⟨31, by have hN : cfg0.N = 32 := N_0; omega⟩

/-- The result array ends at that entry: the last point's block is the whole `[1, 1]` array. -/
theorem final_out (c : Dev nD) : (dats m 0 c).arrAt 4 cfg0.N = resultArr m c :=
  (dats m 0 c).arrAt_eq_of_cover 4 (resultArr m c) (flushed_eq m c) fun i =>
    ⟨lastPt, (flush0_4 lastPt).mpr rfl, by
      show i ∈ ((View.whole main_v2).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 1 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 1 from by decide +kernel]; omega⟩

/-- The host's reshape of the result array to a scalar keeps the entry. -/
theorem tail_eq (c : Dev nD) :
    Pipeline.afterTail₀ cfgs (dats m) 0 (V0 m) [hostOps1] c main_v3 = fun _ => total m c + margin := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = resultArr m c :=
    (Pipeline.withArrays_arr spec0 launch0.win.arr_inj c _ _ 4).trans (final_out m c)
  rw [e]
  rfl

/-- The run, read: the scalar result at the total plus the margin, the arguments unchanged. -/
theorem run : θ_run defs (onTc (τ := τ) (main (F := Ideal))) ⟨m, fun _ => 0, ρ⟩ fun r => ∀ c : Dev nD,
      r.2.mem ((c.tc : Thread nD τ).loc main_v3) = (fun _ => total m c + margin)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end AtIdeal

end Cert.RankLoss.Accum

end
-- ==== Proof.Blocks.lean ====
/-
  What the body's four input blocks at a grid point hold, in terms of the argument arrays.

  The 32 grid points are numbered row-major over a 4 × 8 grid: point `t` is at row `t / 8` and column
  `t % 8`. The query features and the query identifiers are cut into 4 runs of 1024 rows and the point
  reads run `t / 8`; the database features and identifiers are cut into 8 runs of 1024 and the point
  reads run `t % 8`. An entry of a block is the array's entry at block index × block size + the
  coordinate inside the block. The identifiers reach the kernel as a column `[4096, 1]` and a row
  `[1, 8192]`, reshapes of the flat identifier arrays that keep the row-major position.
-/
import proofs.«108141_j23184233464204_1_alg».proof.Proof.Gen.KernelIdeal.Frame
import proofs.«108141_j23184233464204_1_alg».proof.Proof.LibColumn
import Idealize.ShloMosaic.Lib.Pipeline.Value
import Idealize.ShloMosaic.Lib.ValueLayout
import Idealize.ShloMosaic.Lib.StableHlo.Run
import Idealize.ShloMosaic.Lib.Tactic

noncomputable section

namespace Cert.RankLoss.Blocks

open Idealize.ShloMosaic Idealize.ShloMosaic.TcCoe Idealize.ShloMosaic.ValueIdx Idealize.SL.Sem Cert.KernelIdeal Cert.KernelIdeal.Gen
open Cert.RankLoss.Column
open Idealize.ShloMosaic.Pipeline (Dat)

variable {F : FTy → Type} [FloatOps F]
variable (m : (ℓ : Loc nD τ sig) → Buf (Elt F) ℓ)

/-- The query row that row `r` of point `t`'s block is. -/
def qRow (t : Fin cfg0.N) (r : Fin 1024) : Fin 4096 :=
  ⟨1024 * (t.val / 8) + r.val, by have := t.isLt; have hN : cfg0.N = 32 := N_0; have := r.isLt; omega⟩

/-- The database row that row `r` of point `t`'s block is. -/
def dRow (t : Fin cfg0.N) (r : Fin 1024) : Fin 8192 :=
  ⟨1024 * (t.val % 8) + r.val, by have := t.isLt; have hN : cfg0.N = 32 := N_0; have := r.isLt; omega⟩

/-- The four windows' block indices at every grid point, decided over the grid. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8) :=
  (by decide +kernel : ∀ t : Fin grid0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8))

/-- The block of query features at point `t`, entry `(r, k)`. -/
theorem iblk0_apply (c : Dev nD) (t : Fin cfg0.N) (r : Fin 1024) (k : Fin 256) :
    (iblk m c 0 t : Vec F S1024x256 .f32) (ix2 r k) = V m c main_arg0 (ix2 (qRow t r) k) := by
  unfold iblk
  rw [View.read_apply]
  show V m c main_arg0 _ = V m c main_arg0 _
  congr 1
  funext a
  apply Fin.ext
  match a with
  | ⟨0, _⟩ => show win0_0.index t 0 * 1024 + 1 * r.val = 1024 * (t.val / 8) + r.val; rw [(idx_facts t).1.1]; omega
  | ⟨1, _⟩ => show win0_0.index t 1 * 256 + 1 * k.val = k.val; rw [(idx_facts t).1.2]; omega

/-- The block of database features at point `t`, entry `(r, k)`. -/
theorem iblk1_apply (c : Dev nD) (t : Fin cfg0.N) (r : Fin 1024) (k : Fin 256) :
    (iblk m c 1 t : Vec F S1024x256 .f32) (ix2 r k) = V m c main_arg1 (ix2 (dRow t r) k) := by
  unfold iblk
  rw [View.read_apply]
  show V m c main_arg1 _ = V m c main_arg1 _
  congr 1
  funext a
  apply Fin.ext
  match a with
  | ⟨0, _⟩ => show win0_1.index t 0 * 1024 + 1 * r.val = 1024 * (t.val % 8) + r.val; rw [(idx_facts t).2.1.1]; omega
  | ⟨1, _⟩ => show win0_1.index t 1 * 256 + 1 * k.val = k.val; rw [(idx_facts t).2.1.2]; omega

/-- The block of query identifiers at point `t`, entry `(r, 0)`. -/
theorem iblk2_apply (c : Dev nD) (t : Fin cfg0.N) (r : Fin 1024) (u : Fin 1) :
    (iblk m c 2 t : Vec F S1024x1 .i32) (ix2 r u) = V m c main_v0 (ix2 (qRow t r) u) := by
  unfold iblk
  rw [View.read_apply]
  show V m c main_v0 _ = V m c main_v0 _
  congr 1
  funext a
  apply Fin.ext
  match a with
  | ⟨0, _⟩ => show win0_2.index t 0 * 1024 + 1 * r.val = 1024 * (t.val / 8) + r.val; rw [(idx_facts t).2.2.1.1]; omega
  | ⟨1, _⟩ => show win0_2.index t 1 * 1 + 1 * u.val = u.val; rw [(idx_facts t).2.2.1.2]; omega

/-- The block of database identifiers at point `t`, entry `(0, r)`. -/
theorem iblk3_apply (c : Dev nD) (t : Fin cfg0.N) (u : Fin 1) (r : Fin 1024) :
    (iblk m c 3 t : Vec F S1x1024 .i32) (ix2 u r) = V m c main_v1 (ix2 u (dRow t r)) := by
  unfold iblk
  rw [View.read_apply]
  show V m c main_v1 _ = V m c main_v1 _
  congr 1
  funext a
  apply Fin.ext
  match a with
  | ⟨0, _⟩ => show win0_3.index t 0 * 1 + 1 * u.val = u.val; rw [(idx_facts t).2.2.2.1]; omega
  | ⟨1, _⟩ => show win0_3.index t 1 * 1024 + 1 * r.val = 1024 * (t.val % 8) + r.val; rw [(idx_facts t).2.2.2.2]; omega

/-- The column of query identifiers the region finds: the flat array, reshaped. -/
theorem V_main_v0 (c : Dev nD) :
    V m c main_v0 = shapeCast S4096x1 (m ((c : Thread nD τ).loc main_arg2)) shapeCasts_S4096_S4096x1 := by
  show StableHlo.after hostOps0 (fun b => m (c, b)) (Proc.devRef .tc main_v0) = _
  after_results
  rfl

/-- The row of database identifiers the region finds: the flat array, reshaped. -/
theorem V_main_v1 (c : Dev nD) :
    V m c main_v1 = shapeCast S1x8192 (m ((c : Thread nD τ).loc main_arg3)) shapeCasts_S8192_S1x8192 := by
  show StableHlo.after hostOps0 (fun b => m (c, b)) (Proc.devRef .tc main_v1) = _
  after_results
  rfl

/-- Entry `(a, 0)` of the identifier column is identifier `a`. -/
theorem V_main_v0_apply (c : Dev nD) (a : Fin 4096) (u : Fin 1) :
    V m c main_v0 (ix2 a u) = m ((c : Thread nD τ).loc main_arg2) (ix1 a) := by
  rw [V_main_v0]
  exact shapeCast_a_a1_apply _ _ a u

/-- Entry `(0, b)` of the identifier row is identifier `b`. -/
theorem V_main_v1_apply (c : Dev nD) (u : Fin 1) (b : Fin 8192) :
    V m c main_v1 (ix2 u b) = m ((c : Thread nD τ).loc main_arg3) (ix1 b) := by
  rw [V_main_v1]
  exact shapeCast_a_1a_apply _ _ u b

end Cert.RankLoss.Blocks

end
-- ==== Proof.Bridge.lean ====
/-
  The kernel's total is the reference's double sum.

  A tile's contribution, written over its four blocks, is the sum of the signed similarities of query
  rows `1024 (t / 8) + r` against database rows `1024 (t % 8) + c` of the argument arrays (a block's row
  is the array's row, so its norm is the array row's norm; a block's identifier is the array's). The 32
  tiles partition the 4096 × 8192 pairs, so the sum of the contributions is the sum over all pairs.
-/
import proofs.«108141_j23184233464204_1_alg».proof.Proof.Accum
import proofs.«108141_j23184233464204_1_alg».proof.Proof.Blocks
import proofs.«108141_j23184233464204_1_alg».proof.Proof.Cosine

noncomputable section

open scoped BigOperators

namespace Cert.RankLoss.Bridge

open Idealize.ShloMosaic Idealize.ShloMosaic.TcCoe Idealize.ShloMosaic.ValueIdx Idealize.SL.Sem Cert.KernelIdeal Cert.KernelIdeal.Gen
open Cert.RankLoss Cert.RankLoss.Tile Cert.RankLoss.Accum Cert.RankLoss.Blocks

variable (m : (ℓ : Loc nD τ sig) → Buf (Elt Ideal) ℓ)

/-- The signed similarity of query row `a` and database row `b` of the argument arrays. -/
def pairOf (c : Dev nD) (a : Fin 4096) (b : Fin 8192) : EReal :=
  pairTerm (rowOf (m ((c : Thread nD τ).loc main_arg0) : Vec Ideal S4096x256 .f32) a)
    (rowOf (m ((c : Thread nD τ).loc main_arg1) : Vec Ideal S8192x256 .f32) b)
    ((m ((c : Thread nD τ).loc main_arg2) : Vec Ideal S4096 .i32) (ix1 a))
    ((m ((c : Thread nD τ).loc main_arg3) : Vec Ideal S8192 .i32) (ix1 b))

/-- Row `r` of the query block at point `t` is the argument's row `1024 (t / 8) + r`. -/
theorem qblk_row (c : Dev nD) (t : Fin cfg0.N) (r : Fin 1024) :
    rowOf (qblk m c t) r = rowOf (m ((c : Thread nD τ).loc main_arg0) : Vec Ideal S4096x256 .f32) (qRow t r) :=
  funext fun k => (iblk0_apply m c t r k).trans (congrFun (V_main_arg0 m c) _)

/-- Row `r` of the database block at point `t` is the argument's row `1024 (t % 8) + r`. -/
theorem dblk_row (c : Dev nD) (t : Fin cfg0.N) (r : Fin 1024) :
    rowOf (dblk m c t) r = rowOf (m ((c : Thread nD τ).loc main_arg1) : Vec Ideal S8192x256 .f32) (dRow t r) :=
  funext fun k => (iblk1_apply m c t r k).trans (congrFun (V_main_arg1 m c) _)

/-- Entry `r` of the query identifier block at point `t` is identifier `1024 (t / 8) + r`. -/
theorem qidblk_entry (c : Dev nD) (t : Fin cfg0.N) (r : Fin 1024) :
    qidblk m c t (ix2 r (0 : Fin 1)) = (m ((c : Thread nD τ).loc main_arg2) : Vec Ideal S4096 .i32) (ix1 (qRow t r)) :=
  (iblk2_apply m c t r 0).trans (V_main_v0_apply m c _ 0)

/-- Entry `r` of the database identifier block at point `t` is identifier `1024 (t % 8) + r`. -/
theorem didblk_entry (c : Dev nD) (t : Fin cfg0.N) (r : Fin 1024) :
    didblk m c t (ix2 (0 : Fin 1) r) = (m ((c : Thread nD τ).loc main_arg3) : Vec Ideal S8192 .i32) (ix1 (dRow t r)) :=
  (iblk3_apply m c t 0 r).trans (V_main_v1_apply m c 0 _)

/-- A tile's contribution over the argument arrays. -/
theorem tileAt_eq (c : Dev nD) (t : Fin cfg0.N) :
    tileAt m c t = ∑ r : Fin 1024, ∑ c' : Fin 1024, pairOf m c (qRow t r) (dRow t c') := by
  unfold tileAt tileSum pairOf
  refine Finset.sum_congr rfl fun r _ => Finset.sum_congr rfl fun c' _ => ?_
  rw [qblk_row, dblk_row, qidblk_entry, didblk_entry]

/-- The kernel's total is the sum over all pairs of a query row and a database row. -/
theorem total_eq (c : Dev nD) : total m c = ∑ a : Fin 4096, ∑ b : Fin 8192, pairOf m c a b := by
  unfold total
  refine (Finset.sum_congr rfl fun s _ => tileAt_eq m c _).trans ?_
  exact sum_tiles (pairOf m c)

end Cert.RankLoss.Bridge

end
-- ==== Proof.RefSide.lean ====
/-
  The reference, read at an index over the extended reals: it is the margin plus the sum, over every
  pair of a query row and a database row, of their signed cosine similarity.

  Each stage of the reference is read at an index from the stage before (the generated read-at-an-index
  lemmas); what is added here is that the composed index functions name the expected entries (row `a`
  of the queries, row `b` of the database, identifiers `a` and `b`) and that the stages then spell
  `unitRow`, `sgn` and `pairTerm`.
-/
import proofs.«108141_j23184233464204_1_alg».proof.Proof.Gen.ReferenceIdeal.Run
import proofs.«108141_j23184233464204_1_alg».proof.Proof.Gen.ReferenceIdeal.Read
import proofs.«108141_j23184233464204_1_alg».proof.Proof.Cosine

noncomputable section

open scoped BigOperators

namespace Cert.RankLoss.Ref

open Idealize.ShloMosaic Idealize.ShloMosaic.ValueIdx Cert.ReferenceIdeal Cert.ReferenceIdeal.Read Cert.RankLoss

variable (q : (⟨S4096x256, .f32⟩ : BufTy).Contents (Elt Ideal)) (d : (⟨S8192x256, .f32⟩ : BufTy).Contents (Elt Ideal))
  (qi : (⟨S4096, .i32⟩ : BufTy).Contents (Elt Ideal)) (di : (⟨S8192, .i32⟩ : BufTy).Contents (Elt Ideal))

/-- The normalised queries at row `a`, column `k`. -/
theorem queries_unit (a : Fin 4096) (k : Fin 256) :
    val_main_v7 (F := Ideal) q (ix2 a k) = unitRow (rowOf q a) k := by
  have hidx : ∀ l : Fin 256, idx_main_v1 (idx_main_v2 (idx_main_v6 (ix2 a k))) l = ix2 a l := fun l =>
    funext fun e => Fin.ext (by match e with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, hidx, Ideal.hostDivf_def, Ideal.maximumf_def, Ideal.hostUnary_sqrt_def, Ideal.ofBits_def,
    Ideal.mulf_def, Ideal.ofBits_zero_f32, zero_add]
  rfl

/-- The normalised database, transposed, at column `k`, row `b`. -/
theorem database_unit (b : Fin 8192) (k : Fin 256) :
    val_main_v16 (F := Ideal) d (ix2 k b) = unitRow (rowOf d b) k := by
  have hidx : ∀ l : Fin 256, idx_main_v9 (idx_main_v10 (idx_main_v14 (idx_main_v16 (ix2 k b)))) l = ix2 b l := fun l =>
    funext fun e => Fin.ext (by match e with | ⟨0, _⟩ => rfl | ⟨1, _⟩ => rfl)
  have hidx' : idx_main_v16 (ix2 k b) = ix2 b k :=
    funext fun e => Fin.ext (by match e with | ⟨0, _⟩ => rfl | ⟨1, _⟩ => rfl)
  rw [val_main_v16_apply, val_main_v15_apply, val_main_v14_apply, val_main_v13_apply, val_main_v11_apply, val_main_v10_apply,
    val_main_v9_apply, val_main_v12_apply, val_main_cst_2_apply, val_main_cst_1_apply]
  simp only [val_main_v8_apply, hidx, Ideal.hostDivf_def, Ideal.maximumf_def, Ideal.hostUnary_sqrt_def, Ideal.ofBits_def,
    Ideal.mulf_def, Ideal.ofBits_zero_f32, zero_add]
  rw [hidx']
  rfl

/-- The sign matrix at `(a, b)`. -/
theorem sign_apply (a : Fin 4096) (b : Fin 8192) :
    val_main_v24 (F := Ideal) qi di (ix2 a b) = sgn (qi (ix1 a)) (di (ix1 b)) := by
  have ha : idx_main_v18 (idx_main_v20 (ix2 a b)) = ix1 a := funext fun e => Fin.ext (by match e with | ⟨0, _⟩ => rfl)
  have hb : idx_main_v19 (idx_main_v21 (ix2 a b)) = ix1 b := funext fun e => Fin.ext (by match e with | ⟨0, _⟩ => rfl)
  rw [val_main_v24_apply, val_main_v23_apply, val_main_v22_apply, val_main_v20_apply, val_main_v18_apply, val_main_v21_apply,
    val_main_v19_apply, val_main_call0_v0_apply, val_main_cst_3_apply, val_main_call0_v1_apply, val_main_cst_4_apply, ha, hb]
  rfl

/-- The signed similarity matrix at `(a, b)`. -/
theorem term_apply (a : Fin 4096) (b : Fin 8192) :
    val_main_v25 (F := Ideal) q d qi di (ix2 a b) = pairTerm (rowOf q a) (rowOf d b) (qi (ix1 a)) (di (ix1 b)) := by
  have hl : ∀ k : Fin 256, lidx_main_v17 (ix2 a b) k = ix2 a k := fun k =>
    funext fun e => Fin.ext (by match e with | ⟨0, _⟩ => rfl | ⟨1, _⟩ => rfl)
  have hr : ∀ k : Fin 256, ridx_main_v17 (ix2 a b) k = ix2 k b := fun k =>
    funext fun e => Fin.ext (by match e with | ⟨0, _⟩ => rfl | ⟨1, _⟩ => rfl)
  rw [val_main_v25_apply, val_main_v17_apply, sign_apply]
  simp only [hl, hr, queries_unit, database_unit]
  rfl

/-- The reference's result: the margin plus the sum of the signed similarities over all pairs. -/
theorem result_apply (i : S_.Idx) :
    val_main_v27 (F := Ideal) q d qi di i
      = Ideal.ofBits .f32 0x3E4CCCCD#32
        + ∑ a : Fin 4096, ∑ b : Fin 8192, pairTerm (rowOf q a) (rowOf d b) (qi (ix1 a)) (di (ix1 b)) := by
  rw [val_main_v27_apply, val_main_v26_apply, val_main_cst_6_apply, val_main_cst_5_apply, sum_idx2]
  simp only [term_apply, Ideal.addf_def, Ideal.ofBits_def, Ideal.ofBits_zero_f32, zero_add]

end Cert.RankLoss.Ref

end
-- ==== Proof.lean ====
/-
  The certificate of the ranking loss: a margin plus the sum, over every pair of a query row and a
  database row, of their cosine similarity signed by whether the two rows' identifiers agree.

  The kernel walks a 4 × 8 grid of 1024 × 1024 tiles of the pair matrix; at each point it normalises its
  blocks of rows, multiplies them, applies the signs, and adds the tile's sum to a one-entry accumulator
  (reset at the first point); at the last point it stores the accumulator plus the margin. The reference
  normalises the two whole arrays, multiplies them, applies the signs and sums once. Over the extended
  reals the two are one number: a block's row is the array's row (same norm, same normalised entries,
  same identifier), the narrowing of the normalised blocks to bf16 is the identity there, and a sum
  over all pairs may be taken tile by tile because addition is commutative and associative. No
  finiteness of the inputs is used.

  The three frames are the generated ones (the reference's is its generated run with the result
  dropped); the idealization rewrote nothing, so its claim is trivial.
-/
import proofs.«108141_j23184233464204_1_alg».proof.Defs
import proofs.«108141_j23184233464204_1_alg».proof.Proof.Gen.Kernel
import proofs.«108141_j23184233464204_1_alg».proof.Proof.Gen.Kernel.Frame
import proofs.«108141_j23184233464204_1_alg».proof.Proof.Gen.KernelIdeal
import proofs.«108141_j23184233464204_1_alg».proof.Proof.Gen.KernelIdeal.Frame
import proofs.«108141_j23184233464204_1_alg».proof.Proof.Gen.ReferenceIdeal
import proofs.«108141_j23184233464204_1_alg».proof.Proof.Gen.ReferenceIdeal.Run
import proofs.«108141_j23184233464204_1_alg».proof.Proof.Gen.ReferenceIdeal.Read
import proofs.«108141_j23184233464204_1_alg».proof.Proof.Gen.Pre_finite_inputs
import proofs.«108141_j23184233464204_1_alg».proof.Proof.Accum
import proofs.«108141_j23184233464204_1_alg».proof.Proof.Bridge
import proofs.«108141_j23184233464204_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the margin plus the sum of the signed similarities over all pairs: the kernel as
    the 32 tiles' total plus the margin, the reference as the margin plus the double sum. -/
theorem algebraic : Cert.algebraic_KernelIdeal_ReferenceIdeal := by
  intro m ρ m' ρ' _ hagree
  refine ⟨fun c _ => Cert.RankLoss.Accum.total m c + Cert.RankLoss.Accum.margin, Cert.RankLoss.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2]
  funext i
  rw [Cert.RankLoss.Ref.result_apply]
  show _ = Cert.RankLoss.Accum.total m c + Cert.RankLoss.Accum.margin
  rw [Cert.RankLoss.Bridge.total_eq, add_comm]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
